-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S32x32 : Shape := ⟨2, ![32, 32]⟩
abbrev S1x32 : Shape := ⟨2, ![1, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S1000000x32 .f32) (main_arg1 : FVec F S32x32 .f32) (main_arg2 : FVec F S1x32 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Kernel.lean ====
abbrev S1000000x32 : Shape := ⟨2, ![1000000, 32]⟩
abbrev S32x32 : Shape := ⟨2, ![32, 32]⟩
abbrev S1x32 : Shape := ⟨2, ![1, 32]⟩
abbrev S32x1000000 : Shape := ⟨2, ![32, 1000000]⟩
abbrev S32x1 : Shape := ⟨2, ![32, 1]⟩
abbrev S32x65536 : Shape := ⟨2, ![32, 65536]⟩

abbrev nBuf : Space → Nat
  | .hbm => 7
  | .vmem => 6
  | .smem => 0
  | _ => 0

abbrev bufTy : (tb : Table) → Fin (tcTables nBuf tb) → BufTy
  | .hbm, ⟨0, _⟩ => ⟨S1000000x32, .f32⟩
  | .hbm, ⟨1, _⟩ => ⟨S32x32, .f32⟩
  | .hbm, ⟨2, _⟩ => ⟨S1x32, .f32⟩
  | .hbm, ⟨3, _⟩ => ⟨S32x1000000, .f32⟩
  | .hbm, ⟨4, _⟩ => ⟨S32x1, .f32⟩
  | .hbm, ⟨5, _⟩ => ⟨S32x1000000, .f32⟩
  | .hbm, ⟨6, _⟩ => ⟨S1000000x32, .f32⟩
  | .local _ .vmem, ⟨0, _⟩ => ⟨S32x65536, .f32⟩
  | .local _ .vmem, ⟨1, _⟩ => ⟨S32x65536, .f32⟩
  | .local _ .vmem, ⟨2, _⟩ => ⟨S32x32, .f32⟩
  | .local _ .vmem, ⟨3, _⟩ => ⟨S32x1, .f32⟩
  | .local _ .vmem, ⟨4, _⟩ => ⟨S32x65536, .f32⟩
  | .local _ .vmem, ⟨5, _⟩ => ⟨S32x65536, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1000000x32_S32x1000000_1_0 : S1000000x32.Transposes [1, 0] S32x1000000
  transposes_S1x32_S32x1_1_0 : S1x32.Transposes [1, 0] S32x1
  inb_S32x32_S32x32_0_0 : ∀ a, (![0, 0] : Fin 2 → Nat) a + S32x32.size a ≤ S32x32.size a
  h_S32x32 : 0 < S32x32.numel
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x65536 : S32x1.Broadcasts S32x65536
  transposes_S32x1000000_S1000000x32_1_0 : S32x1000000.Transposes [1, 0] S1000000x32
  dot_S32x32_S32x65536_S32x65536_0_0_1_1_n_n_wf : DotDims.WF S32x32 S32x65536 S32x65536 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x65536.size a < S32x1000000.size a
  hwx0_0 : ∀ i : grid0.Coords, EltTy.bits .f32 = 32 ∨ (Rect.unit (s := S32x1000000) (fun a => cc0_transform_0 i a * S32x65536.size a) (fun a => (Pipeline.Clip.of (cc0_transform_0 i a) (S32x65536.size a) (S32x1000000.size a)).extent (S32x65536.size a)) fun a => Pipeline.Clip.inb (Pipeline.Clip.ok_of (hstart0_0 i a))).WholeWords (EltTy.packing .f32)
  hwxs0_0 : ∀ i : grid0.Coords, EltTy.bits .f32 = 32 ∨ (Rect.unit (s := S32x65536) (fun _ => 0) (fun a => (Pipeline.Clip.of (cc0_transform_0 i a) (S32x65536.size a) (S32x1000000.size a)).extent (S32x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x65536.size a < S32x1000000.size a
  hwx0_3 : ∀ i : grid0.Coords, EltTy.bits .f32 = 32 ∨ (Rect.unit (s := S32x1000000) (fun a => cc0_transform_3 i a * S32x65536.size a) (fun a => (Pipeline.Clip.of (cc0_transform_3 i a) (S32x65536.size a) (S32x1000000.size a)).extent (S32x65536.size a)) fun a => Pipeline.Clip.inb (Pipeline.Clip.ok_of (hstart0_3 i a))).WholeWords (EltTy.packing .f32)
  hwxs0_3 : ∀ i : grid0.Coords, EltTy.bits .f32 = 32 ∨ (Rect.unit (s := S32x65536) (fun _ => 0) (fun a => (Pipeline.Clip.of (cc0_transform_3 i a) (S32x65536.size a) (S32x1000000.size a)).extent (S32x65536.size a)) fun a => (Nat.zero_add _).trans_le (Pipeline.Clip.extent_le (Pipeline.Clip.ok_of (hstart0_3 i a)))).WholeWords (EltTy.packing .f32)

variable [Facts₀]

def dot_S32x32_S32x65536_S32x65536_0_0_1_1_n_n : DotDims S32x32 S32x65536 S32x65536 where
  lhsContracting := [0]
  rhsContracting := [0]
  lhsNonContracting := [1]
  rhsNonContracting := [1]
  lhsBatch := []
  rhsBatch := []
  wf := dot_S32x32_S32x65536_S32x65536_0_0_1_1_n_n_wf

abbrev win0_0 : Pipeline.Window sig grid0 :=
  Pipeline.Window.ofSpecClip (Memref.whole main_v0) S32x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S32x65536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S32x32 : Shape := ⟨2, ![32, 32]⟩
abbrev S1x32 : Shape := ⟨2, ![1, 32]⟩

abbrev nBuf : Space → Nat
  | .hbm => 6
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S32x32, .f32⟩
  | .hbm, ⟨2, _⟩ => ⟨S1x32, .f32⟩
  | .hbm, ⟨3, _⟩ => ⟨S1000000x32, .f32⟩
  | .hbm, ⟨4, _⟩ => ⟨S1000000x32, .f32⟩
  | .hbm, ⟨5, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x32_S1000000x32_0_1 : S1x32.BroadcastsInDim S1000000x32 (![0, 1] : Fin 2 → Fin S1000000x32.rank)
  dot_S1000000x32_S32x32_S1000000x32_1_0_0_1_n_n_wf : DotDims.WF S1000000x32 S32x32 S1000000x32 [1] [0] [0] [1] [] []

variable [Facts₀]

def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf

class Facts : Prop extends Facts₀ where

variable [Facts]
-- ==== Proof.BitsBody.lean ====
import proofs.«113221_g37271726195534_cont_8to1_b_778_5_alg».proof.Proof.Gen.Kernel.Frame
import proofs.«113221_g37271726195534_cont_8to1_b_778_5_alg».proof.Proof.Gen.Kernel.Skeleton
import Idealize.ShloMosaic.Lib.Pipeline.Value
import Idealize.ShloMosaic.Lib.Tactic

/-!
# One grid point of the kernel, as a triple

The body reads the weight buffer, the activation block and the bias column whole, forms the block product plus the
bias spread along the points, and overwrites the result buffer whole (it also reads the result buffer once, a value it
never uses). So whatever the four buffers hold — `x` (activations), `w` (weights), `b` (bias), anything (result) —
the body ends with the three inputs as they were and the result buffer at the point's payload of `w`, `x` and `b`.
Stated for every reading of the floats, since it only follows the memory operations.
-/

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The whole-buffer rectangle starts at the origin. -/
theorem off0 : (![0, 0] : Fin 2 → ℕ) = fun _ => 0 := funext fun a => by fin_cases a <;> rfl

/-- The body on whole staging buffers: inputs at `x`, `w`, `b`, the result's at anything; it ends with the inputs
    unchanged and the result's buffer at the payload. -/
theorem sound_kernel (c : Dev nD) (E : Set ℕ) (i : grid0.Coords)
    (arg1 : Memref sig .tc .vmem S32x65536 .f32) (harg1 : arg1.IsWhole)
    (arg2 : Memref sig .tc .vmem S32x32 .f32) (harg2 : arg2.IsWhole)
    (arg3 : Memref sig .tc .vmem S32x1 .f32) (harg3 : arg3.IsWhole)
    (arg4 : Memref sig .tc .vmem S32x65536 .f32) (harg4 : arg4.IsWhole)
    (x : Vec F S32x65536 .f32) (w : Vec F S32x32 .f32) (b : Vec F S32x1 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay1 w x b)) -∗ K ⟨⟩))
      ⊢ wp frame (wpE (defs₀ (F := F)) Variants.none c none) E (cc0__pointwise_mm_block i arg1 harg1 arg2 harg2 arg3 harg3 arg4 harg4) K := by
  simp only [cc0__pointwise_mm_block_eq_skeleton]; unfold cc0__pointwise_mm_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as its payload; each load read the whole contents
  rw [View.read_writes_eq_canon _ _ _ (fun y => ⟨_, List.mem_singleton_self _, View.mem_set_unit_zero off0 inb_S32x65536_S32x65536_0_0 y⟩),
    View.canon_unit_zero off0, View.readAt_eq_ld, View.readAt_eq_ld, View.readAt_eq_ld,
    View.ld_unit_zero off0, View.ld_unit_zero off0, View.ld_unit_zero off0]

end Cert.Kernel.Body

end
-- ==== Proof.BitsFrame.lean ====
import proofs.«113221_g37271726195534_cont_8to1_b_778_5_alg».proof.Proof.BitsBody
import Idealize.ShloMosaic.Lib.Pipeline.Value
import Idealize.ShloMosaic.Lib.Tactic

/-!
# The frame of the program as printed (word level)

At the word level the matrix unit's product is a function of its whole operands, so at the last grid point — whose
activation block carries unspecified values past the array's end — nothing names what the result's buffer holds, even
on the columns that exist. The frame does not need it: it says the run terminates, faults nowhere and leaves the three
argument arrays as they were. So the result's window is FORGOTTEN: its buffer is handed to the body at any contents
and taken back at any contents, and the result array ends at some contents. The activations', the weights' and the
bias's buffers are described as over the extended reals: the body reads them and leaves them as they were.

After the region the program transposes the result array into a fresh buffer; that operation reads no argument array
and writes none, so the arguments' final contents are their contents at the region's entry, which are their contents
at launch.
-/

noncomputable section

namespace Cert.Kernel.Frame

open Cert.Kernel Cert.Kernel.Gen Cert.Kernel.Body
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The proof data -/

/-- The windows whose contents are not described: the result's. -/
abbrev fgt : Fin 4 → Bool := fun | 0 => false | 1 => false | 2 => false | 3 => true | ⟨_ + 4, h⟩ => absurd h (Nat.not_lt.2 (Nat.le_add_left _ _))

/-- The activations' block at point `t` as a full block: its existing columns, the zero word past the array's end. -/
def xfull (c : Dev nD) (t : Fin cfg0.N) : S32x65536.Idx → Elt F .f32 :=
  win0_0.fill (grid0.coords t) (fun _ => Scalar.ofBits .f32 0#32) (iblk m c 0 t)

def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => fun _ => Scalar.ofBits .f32 0#32
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-! ## What the body finds -/

theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, the result's window forgotten -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩⟩
  iapply (sound_kernel (F := F) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  iexists _; iexact H3

theorem body_obligation (c : Dev nD) : BodyObligationLoose (dats m 0 c) (defs₀ (F := F)) Variants.none () Set.univ fgt := fun t => by
  rw [bigSep_W0, bigSep_W0]
  exact sound_body m c t

/-! ## The run and the frame -/

/-- The proof data read with the result's window saying nothing. -/
abbrev rdat (c : Dev nD) : RDat τ (Elt F) Unit ℕ (UR sig nD τ) ℕ cfg0 c := (dats m 0 c).toRForget fgt

/-- The one host operation after the region writes the transposed result's buffer only. -/
theorem sfx_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.mpr (Proc.devRef_injective _ hb)

set_option backward.isDefEq.respectTransparency.types false in
theorem run_main : θ_run defs (onTc (τ := τ) (main (F := F))) (s₀ m ρ)
    (RDat.FramePostR cfg0 (rdat m) {main_v3} (fun c b => V0 m c (Proc.devRef .tc b))) :=
  RDat.θ_run_frame_around_T cfgs (0 : Fin 1) launch0 defs₀ Variants.none (rdat m) {main_v3} m ρ main
    (hbody := fun c => (body_obligation m c).toRForget)
    (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: the three argument arrays end as they began. The weights are an input window's array (never written);
    the activations and the bias bypass the region (the kernel reads their transposes) and no later operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans (V_main_arg0 m c),
      (RDat.FramePostR.arr_in h c 1 rfl).trans ((A_eq m c 1).trans (V_main_arg1 m c)),
      ((h c).2 main_arg2 (Finset.mem_sdiff.mpr ⟨Pipeline.mem_restRefs_of main_arg2 (by decide) (by decide), by decide⟩)).trans (V_main_arg2 m c)⟩)
    (run_main m ρ)

end Cert.Kernel.Frame

end
-- ==== Proof.IdealBody.lean ====
import proofs.«113221_g37271726195534_cont_8to1_b_778_5_alg».proof.Proof.Gen.KernelIdeal.Frame
import proofs.«113221_g37271726195534_cont_8to1_b_778_5_alg».proof.Proof.Gen.KernelIdeal.Skeleton
import Idealize.ShloMosaic.Lib.Pipeline.Value
import Idealize.ShloMosaic.Lib.Tactic

/-!
# One grid point of the kernel, as a triple

The body reads the weight buffer, the activation block and the bias column whole, forms the block product plus the
bias spread along the points, and overwrites the result buffer whole (it also reads the result buffer once, a value it
never uses). So whatever the four buffers hold — `x` (activations), `w` (weights), `b` (bias), anything (result) —
the body ends with the three inputs as they were and the result buffer at the point's payload of `w`, `x` and `b`.
Stated for every reading of the floats, since it only follows the memory operations.
-/

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The whole-buffer rectangle starts at the origin. -/
theorem off0 : (![0, 0] : Fin 2 → ℕ) = fun _ => 0 := funext fun a => by fin_cases a <;> rfl

/-- The body on whole staging buffers: inputs at `x`, `w`, `b`, the result's at anything; it ends with the inputs
    unchanged and the result's buffer at the payload. -/
theorem sound_kernel (c : Dev nD) (E : Set ℕ) (i : grid0.Coords)
    (arg1 : Memref sig .tc .vmem S32x65536 .f32) (harg1 : arg1.IsWhole)
    (arg2 : Memref sig .tc .vmem S32x32 .f32) (harg2 : arg2.IsWhole)
    (arg3 : Memref sig .tc .vmem S32x1 .f32) (harg3 : arg3.IsWhole)
    (arg4 : Memref sig .tc .vmem S32x65536 .f32) (harg4 : arg4.IsWhole)
    (x : Vec F S32x65536 .f32) (w : Vec F S32x32 .f32) (b : Vec F S32x1 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay1 w x b)) -∗ K ⟨⟩))
      ⊢ wp frame (wpE (defs₀ (F := F)) Variants.none c none) E (cc0__pointwise_mm_block i arg1 harg1 arg2 harg2 arg3 harg3 arg4 harg4) K := by
  simp only [cc0__pointwise_mm_block_eq_skeleton]; unfold cc0__pointwise_mm_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as its payload; each load read the whole contents
  rw [View.read_writes_eq_canon _ _ _ (fun y => ⟨_, List.mem_singleton_self _, View.mem_set_unit_zero off0 inb_S32x65536_S32x65536_0_0 y⟩),
    View.canon_unit_zero off0, View.readAt_eq_ld, View.readAt_eq_ld, View.readAt_eq_ld,
    View.ld_unit_zero off0, View.ld_unit_zero off0, View.ld_unit_zero off0]

end Cert.KernelIdeal.Body

end
-- ==== Proof.IdealPay.lean ====
import proofs.«113221_g37271726195534_cont_8to1_b_778_5_alg».proof.Proof.Gen.KernelIdeal.Skeleton
import Idealize.ShloMosaic.Lib.Pipeline.Value
import Idealize.ShloMosaic.Lib.ValueIdx
import Idealize.ShloMosaic.PureOps.Ideal.Laws

/-!
# The block product plus bias, entry by entry, over the extended reals

One grid point of the kernel holds a weight matrix `w` (32 × 32, input channel by output channel), a block `x` of
the transposed activations (32 input channels × 65536 points) and the bias as a column `b` (32 × 1). What it stores is
`wᵀ·x + b` spread along the points: entry `(p, q)` is `∑ₖ w[k, p] · x[k, q] + b[p, 0]`.

The sum runs over the input channel `k` only, so entry `(p, q)` depends on column `q` of `x` and on no other column:
two blocks that agree on a column give the same result on that column (`pay_congr_col`). This is what lets the last
block of the grid, whose trailing columns lie past the end of the array and hold unspecified values, still produce
the right values on the columns that are kept.
-/

noncomputable section

namespace Cert.KernelIdeal.Pay

open Cert.KernelIdeal Cert.KernelIdeal.Gen Idealize.ShloMosaic Idealize.ShloMosaic.ValueIdx

/-! ## The contraction's index maps, axis by axis: both operands are contracted on their rows -/

theorem lhs_mm_0 (i : S32x65536.Idx) (q : dot_S32x32_S32x65536_S32x65536_0_0_1_1_n_n.contr.Idx) :
    (dot_S32x32_S32x65536_S32x65536_0_0_1_1_n_n.lhsIdx i q 0).val = (q ⟨0, by decide⟩).val :=
  dot_S32x32_S32x65536_S32x65536_0_0_1_1_n_n.lhsIdx_val_of_single rfl i q
theorem lhs_mm_1 (i : S32x65536.Idx) (q : dot_S32x32_S32x65536_S32x65536_0_0_1_1_n_n.contr.Idx) :
    (dot_S32x32_S32x65536_S32x65536_0_0_1_1_n_n.lhsIdx i q 1).val = (i 0).val := by
  unfold DotDims.lhsIdx
  rw [dif_neg (show ¬(1 : Fin S32x32.rank) ∈ dot_S32x32_S32x65536_S32x65536_0_0_1_1_n_n.lhsBatch by decide), dif_pos (show (1 : Fin S32x32.rank) ∈ dot_S32x32_S32x65536_S32x65536_0_0_1_1_n_n.lhsNonContracting by decide)]
  rfl
theorem rhs_mm_0 (i : S32x65536.Idx) (q : dot_S32x32_S32x65536_S32x65536_0_0_1_1_n_n.contr.Idx) :
    (dot_S32x32_S32x65536_S32x65536_0_0_1_1_n_n.rhsIdx i q 0).val = (q ⟨0, by decide⟩).val :=
  dot_S32x32_S32x65536_S32x65536_0_0_1_1_n_n.rhsIdx_val_of_single rfl i q
theorem rhs_mm_1 (i : S32x65536.Idx) (q : dot_S32x32_S32x65536_S32x65536_0_0_1_1_n_n.contr.Idx) :
    (dot_S32x32_S32x65536_S32x65536_0_0_1_1_n_n.rhsIdx i q 1).val = (i 1).val := by
  unfold DotDims.rhsIdx
  rw [dif_neg (show ¬(1 : Fin S32x65536.rank) ∈ dot_S32x32_S32x65536_S32x65536_0_0_1_1_n_n.rhsBatch by decide), dif_pos (show (1 : Fin S32x65536.rank) ∈ dot_S32x32_S32x65536_S32x65536_0_0_1_1_n_n.rhsNonContracting by decide)]
  rfl

/-- The matrix product into a zero accumulator at `(p, q)`: the sum over the shared row index `k` of
    `w[k, p] · x[k, q]`. -/
theorem mm_apply (w : Vec Ideal S32x32 .f32) (x : Vec Ideal S32x65536 .f32) (p : Fin 32) (q : Fin 65536) :
    matmul (F := Ideal) (φ₁ := .f32) (φ₂ := .f32) dot_S32x32_S32x65536_S32x65536_0_0_1_1_n_n none w x (constant (F := Ideal) S32x65536 .f32 0x00000000#32) (ix2 p q)
      = ∑ k : Fin 32, w (ix2 k p) * x (ix2 k q) := by
  simp only [matmul]
  rw [Ideal.matmul_constant_zero_apply, ← Equiv.sum_comp (contrEquiv1 dot_S32x32_S32x65536_S32x65536_0_0_1_1_n_n 32 rfl rfl).symm]
  refine Finset.sum_congr rfl fun k _ => ?_
  have hk := contrEquiv1_symm_val dot_S32x32_S32x65536_S32x65536_0_0_1_1_n_n 32 rfl rfl k
  have el : dot_S32x32_S32x65536_S32x65536_0_0_1_1_n_n.lhsIdx (ix2 p q) ((contrEquiv1 dot_S32x32_S32x65536_S32x65536_0_0_1_1_n_n 32 rfl rfl).symm k) = ix2 k p := funext fun a => Fin.ext (by
    match a with
    | ⟨0, _⟩ => exact (lhs_mm_0 _ _).trans hk
    | ⟨1, _⟩ => exact lhs_mm_1 _ _)
  have er : dot_S32x32_S32x65536_S32x65536_0_0_1_1_n_n.rhsIdx (ix2 p q) ((contrEquiv1 dot_S32x32_S32x65536_S32x65536_0_0_1_1_n_n 32 rfl rfl).symm k) = ix2 k q := funext fun a => Fin.ext (by
    match a with
    | ⟨0, _⟩ => exact (rhs_mm_0 _ _).trans hk
    | ⟨1, _⟩ => exact rhs_mm_1 _ _)
  rw [el, er]

/-- What one grid point stores, at `(p, q)`: `∑ₖ w[k, p] · x[k, q] + b[p, 0]`. -/
theorem pay_apply (w : Vec Ideal S32x32 .f32) (x : Vec Ideal S32x65536 .f32) (b : Vec Ideal S32x1 .f32) (p : Fin 32) (q : Fin 65536) :
    k0_pay1 (F := Ideal) w x b (ix2 p q) = (∑ k : Fin 32, w (ix2 k p) * x (ix2 k q)) + b (ix2 p 0) := by
  unfold k0_pay1
  rw [addf_apply, shapeCast_self, shapeCast_self, mm_apply,
    broadcastTo_apply b broadcasts_S32x1_S32x65536 (ix2 p q) (ix2 p 0) (fun a => match a with
      | ⟨0, _⟩ => by show p.val = if (32 : Nat) = 1 then 0 else p.val; rw [if_neg (by decide)]
      | ⟨1, _⟩ => by show 0 = if (1 : Nat) = 1 then 0 else q.val; rw [if_pos rfl])]

/-- Column `q` of the result depends on column `q` of the activations only. -/
theorem pay_congr_col (w : Vec Ideal S32x32 .f32) (x x' : Vec Ideal S32x65536 .f32) (b : Vec Ideal S32x1 .f32) (p : Fin 32) (q : Fin 65536)
    (h : ∀ k : Fin 32, x (ix2 k q) = x' (ix2 k q)) :
    k0_pay1 (F := Ideal) w x b (ix2 p q) = k0_pay1 (F := Ideal) w x' b (ix2 p q) := by
  rw [pay_apply, pay_apply]
  exact congrArg (· + b (ix2 p 0)) (Finset.sum_congr rfl fun k _ => by rw [h k])

end Cert.KernelIdeal.Pay

end
-- ==== Proof.IdealData.lean ====
import proofs.«113221_g37271726195534_cont_8to1_b_778_5_alg».proof.Proof.IdealBody
import proofs.«113221_g37271726195534_cont_8to1_b_778_5_alg».proof.Proof.IdealPay

/-!
# The kernel's run over the extended reals: what every grid point leaves, and the frame

The grid has 16 points; point `t` works on columns `65536·t … 65536·t + 65535` of the transposed activations
(a 32 × 1000000 array) and of the transposed result. The last block overhangs both arrays: only its first 16960
columns exist. Its fetch brings those columns and leaves the rest of the staging buffer at values nothing specifies;
its write-back writes the first 16960 columns of the result buffer and nothing past the array.

What is recorded of each staging buffer after the body at point `t`:
* the activations' buffer: the block's existing columns (the rest: any value — recorded with zeros);
* the weights' and the bias's buffers: the whole weight matrix and bias column (fetched once, never changed);
* the result's buffer: the payload of those — on the columns that exist it does not depend on what fills the
  activations' buffer past the array's end, because the product contracts the rows only (`Pay.pay_congr_col`).
-/

noncomputable section

namespace Cert.KernelIdeal.Data

open Cert.KernelIdeal Cert.KernelIdeal.Gen Cert.KernelIdeal.Body
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-! ## The proof data -/

/-- The activations' block at point `t` as a full 32 × 65536 block: its existing columns, zeros past the array's end. -/
def xfull (c : Dev nD) (t : Fin cfg0.N) : S32x65536.Idx → Elt Ideal .f32 :=
  win0_0.fill (grid0.coords t) (fun _ => (0 : EReal)) (iblk m c 0 t)

/-- What the result's staging buffer is recorded to hold after point `t`. -/
def oblk (c : Dev nD) (t : Fin cfg0.N) : S32x65536.Idx → Elt Ideal .f32 :=
  k0_pay1 (F := Ideal) (iblk m c 1 t) (xfull m c t) (iblk m c 2 t)

def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => oblk m c t
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oblk m c t := by dsimp only [dats]

/-! ## What the body finds -/

/-- The activations' buffer, fetched at every point: the block's existing columns, anything (`d`) past them. -/
theorem before0_0 (c : Dev nD) (t : Fin cfg0.N) (d) :
    (dats m 0 c).before 0 t d = win0_0.fill (grid0.coords t) d (iblk m c 0 t) := by
  unfold Dat.before; rw [if_pos (fetch0_0 t)]; rfl
/-- The weights' and the bias's buffers hold their arrays whole at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The result's buffer is never fetched and is written back at every point: the body finds anything there. -/
theorem before0_3 (c : Dev nD) (t : Fin cfg0.N) (d) : (dats m 0 c).before 3 t d = d := by
  unfold Dat.before
  rw [if_neg (show ¬((cfg0.win 3).fetch t = true) from fun h => Bool.false_ne_true h)]
  by_cases h0 : t.val = 0
  · rw [if_pos h0]
  · rw [if_neg h0]; exact if_pos (flush0_3 _)

/-! ## The last block's kept columns do not see what lies past the array's end -/

/-- A column index of the result's block that the write-back moves is a column the fetch of the activations moved. -/
theorem moved_col (i : grid0.Coords) (j : (win0_3.xblock i).Idx) (k : Fin 32) :
    win0_0.moved i (ix2 k ⟨(j 1).val, Nat.lt_of_lt_of_le (j 1).isLt (win0_3.xsize_le i 1)⟩) = true :=
  (win0_0.moved_iff i _).mpr fun a => match a with
    | ⟨0, _⟩ => k.isLt
    | ⟨1, _⟩ => (j 1).isLt

/-- On the columns the write-back moves, the payload is the same whatever fills the activations' buffer past the
    array's end. -/
theorem cut_pay (i : grid0.Coords) (w : Vec Ideal S32x32 .f32) (b : Vec Ideal S32x1 .f32)
    (g : (win0_0.xblock i).Idx → Elt Ideal .f32) (d d' : S32x65536.Idx → Elt Ideal .f32) :
    win0_3.cut i (k0_pay1 (F := Ideal) w (win0_0.fill i d g) b) = win0_3.cut i (k0_pay1 (F := Ideal) w (win0_0.fill i d' g) b) := by
  funext j
  show k0_pay1 (F := Ideal) w (win0_0.fill i d g) b (win0_3.xinj i j) = k0_pay1 (F := Ideal) w (win0_0.fill i d' g) b (win0_3.xinj i j)
  rw [eq_ix2 (win0_3.xinj i j)]
  refine Pay.pay_congr_col w _ _ b _ _ fun k => ?_
  unfold Window.fill
  have hm : win0_0.moved i (ix2 k (win0_3.xinj i j 1)) = true := moved_col i j k
  rw [dif_pos hm, dif_pos hm]

/-! ## The body obligation -/

/-- What the body is called with at point `t`, the windows one by one: each current staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the two windows whose last block overhangs their array are described on the columns that exist
    only (anything past them); the weights' and the bias's buffers exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. The activations' buffer arrives at its block's existing columns and anything `d₀` past
    them, and leaves so. The result's buffer ends at the payload computed WITH `d₀`; on the columns its write-back
    moves that is the recorded payload (`cut_pay`), and past them the obligation asks nothing. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  iexists (k0_pay1 (F := Ideal) (iblk m c 1 t) (win0_0.fill (grid0.coords t) d0 (iblk m c 0 t)) (iblk m c 2 t))
  rw [win0_3.fill_congr_cut (grid0.coords t)
    (show win0_3.cut (grid0.coords t) (k0_pay1 (F := Ideal) (iblk m c 1 t) (win0_0.fill (grid0.coords t) d0 (iblk m c 0 t)) (iblk m c 2 t))
        = win0_3.cut (grid0.coords t) (oblk m c t) from cut_pay (grid0.coords t) _ _ _ _ _)]
  iexact H3

/-- The pipeline's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates, faults nowhere, and ends with each array of the pipeline
    at what the write-backs leave there and every other buffer as the host operations after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Data

end
-- ==== Proof.Spec.lean ====
import Idealize.ShloMosaic.PureOps.Ideal
import Idealize.ShloMosaic.Lib.ValueIdx

/-!
# The function both programs compute

A pointwise linear layer over 1000000 points with 32 input and 32 output channels: with `X` the activations
(point by input channel), `W` the weights (input channel by output channel) and `B` the bias (one row of output
channels), output channel `p` at point `n` is `∑ₖ W[k, p] · X[n, k] + B[0, p]`, over the extended reals.
The factors are written weight first, as the kernel multiplies them; the reference multiplies activation first, and
the two products are equal because multiplication of extended reals commutes (no finiteness is needed).
-/

noncomputable section

namespace Cert.Spec

open Idealize.ShloMosaic Idealize.ShloMosaic.ValueIdx

/-- Output channel `p` at point `n`. -/
def gt (X : (⟨2, ![1000000, 32]⟩ : Shape).Idx → EReal) (W : (⟨2, ![32, 32]⟩ : Shape).Idx → EReal)
    (B : (⟨2, ![1, 32]⟩ : Shape).Idx → EReal) (p : Fin 32) (n : Fin 1000000) : EReal :=
  (∑ k : Fin 32, W (ix2 k p) * X (ix2 n k)) + B (ix2 0 p)

/-- The result laid out channel by point (the kernel's own layout inside the region). -/
def Gt (X : (⟨2, ![1000000, 32]⟩ : Shape).Idx → EReal) (W : (⟨2, ![32, 32]⟩ : Shape).Idx → EReal)
    (B : (⟨2, ![1, 32]⟩ : Shape).Idx → EReal) : (⟨2, ![32, 1000000]⟩ : Shape).Idx → EReal :=
  fun i => gt X W B (i 0) (i 1)

/-- The result laid out point by channel (what both programs return). -/
def G (X : (⟨2, ![1000000, 32]⟩ : Shape).Idx → EReal) (W : (⟨2, ![32, 32]⟩ : Shape).Idx → EReal)
    (B : (⟨2, ![1, 32]⟩ : Shape).Idx → EReal) : (⟨2, ![1000000, 32]⟩ : Shape).Idx → EReal :=
  fun i => gt X W B (i 1) (i 0)

end Cert.Spec

end
-- ==== Proof.IdealValue.lean ====
import proofs.«113221_g37271726195534_cont_8to1_b_778_5_alg».proof.Proof.IdealData
import proofs.«113221_g37271726195534_cont_8to1_b_778_5_alg».proof.Proof.Spec
import Idealize.ShloMosaic.Lib.ValueLayout

/-!
# What the kernel computes: the result array as one function of the arguments

With `X` the activations (1000000 × 32), `W` the weights (32 × 32) and `B` the bias (1 × 32), write
`gt p n = ∑ₖ W[k, p] · X[n, k] + B[0, p]` for output channel `p` and point `n`.

The region's arrays are the transposes the host made: `Xᵀ` (32 × 1000000) and `Bᵀ` (32 × 1). Grid point `t` stores,
at row `p` and column `q` of its block, `∑ₖ W[k, p] · Xᵀ[k, 65536·t + q] + Bᵀ[p, 0] = gt p (65536·t + q)`; its
write-back puts the block's existing columns at columns `65536·t + q` of the transposed result. The sixteen blocks
cover all 1000000 columns (fifteen full ones and 16960 columns of the last), so the transposed result ends at
`(p, n) ↦ gt p n`, and the host's final transpose leaves `(n, p) ↦ gt p n`.
-/

noncomputable section

namespace Cert.KernelIdeal.Val

open Cert.KernelIdeal Cert.KernelIdeal.Gen Cert.KernelIdeal.Data
open Idealize.ShloMosaic Idealize.ShloMosaic.ValueIdx
open Idealize.ShloMosaic.TcCoe Idealize.ShloMosaic.Tactic
open Idealize.SL Idealize.SL.Sem
open Idealize.ShloMosaic.Pipeline (Dat Cfg Window)
open Cert.Spec (gt Gt G)

variable (m : (ℓ : Loc nD τ sig) → Buf (Elt Ideal) ℓ) (ρ : Dev nD → PrngReg)

/-! ## The arrays the region finds -/

/-- The activations' window ranges over their transpose, -/
theorem V_v0 (c : Dev nD) : (V m c main_v0 : S32x1000000.Idx → EReal)
    = transpose S32x1000000 [1, 0] (m ((c : Thread nD τ).loc main_arg0)) transposes_S1000000x32_S32x1000000_1_0 := by
  show StableHlo.after hostOps0 (fun b => m (c, b)) (Proc.devRef .tc main_v0) = _
  after_results
/-- and the bias's over its transpose, a column. -/
theorem V_v1 (c : Dev nD) : (V m c main_v1 : S32x1.Idx → EReal)
    = transpose S32x1 [1, 0] (m ((c : Thread nD τ).loc main_arg2)) transposes_S1x32_S32x1_1_0 := by
  show StableHlo.after hostOps0 (fun b => m (c, b)) (Proc.devRef .tc main_v1) = _
  after_results

/-! ## The index maps over the grid -/

/-- The weights' and the bias's blocks sit at the origin; the activations' and the result's block `t` starts at
    column `65536·t` and has 65536 columns, but for the last, which has the 16960 that exist. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_3.xsize (grid0.coords t) (0 : Fin 2) = 32
    ∧ win0_3.xsize (grid0.coords t) (1 : Fin 2) = (if t.val = 15 then 16960 else 65536) :=
  (by decide +kernel : ∀ t : Fin grid0.N, _)

/-! ## The blocks the body reads, entry by entry -/

/-- The weights' block is the weight matrix. -/
theorem wblk_apply (c : Dev nD) (t : Fin cfg0.N) (y : S32x32.Idx) :
    iblk m c 1 t y = m ((c : Thread nD τ).loc main_arg1) y := by
  obtain ⟨-, -, e0, e1, -⟩ := idx_facts t
  unfold iblk
  show V m c main_arg1 (((cfg0.win 1).blk t).view.emb y) = _
  rw [V_main_arg1]
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 32 + 1 * (y 1).val = (y 1).val; omega

/-- The bias's block, at row `p`, is the bias of channel `p`. -/
theorem bblk_apply (c : Dev nD) (t : Fin cfg0.N) (p : Fin 32) :
    iblk m c 2 t (ix2 p 0) = m ((c : Thread nD τ).loc main_arg2) (ix2 0 p) := by
  obtain ⟨-, -, -, -, e0, e1, -⟩ := idx_facts t
  unfold iblk
  show V m c main_v1 (((cfg0.win 2).blk t).view.emb (ix2 p 0)) = _
  rw [V_v1]
  have e : ((cfg0.win 2).blk t).view.emb (ix2 p 0) = ix2 p 0 := funext fun a => Fin.ext (by
    match a with
    | ⟨0, _⟩ => show win0_2.index t (0 : Fin 2) * 32 + 1 * p.val = p.val; omega
    | ⟨1, _⟩ => show win0_2.index t (1 : Fin 2) * 1 + 1 * 0 = 0; omega)
  rw [e]
  exact transpose_ix2_apply _ _ p 0

/-- The activations' block, at row `k` and a column the fetch moved, is the activation of point `65536·t + column`
    on input channel `k`. -/
theorem xblk_apply (c : Dev nD) (t : Fin cfg0.N) (y : (win0_0.xblock (grid0.coords t)).Idx) (k : Fin 32) (n : Fin 1000000)
    (hk : (y 0).val = k.val) (hn : n.val = t.val * 65536 + (y 1).val) :
    iblk m c 0 t y = m ((c : Thread nD τ).loc main_arg0) (ix2 n k) := by
  obtain ⟨e0, e1, -⟩ := idx_facts t
  unfold iblk
  show V m c main_v0 (((cfg0.win 0).blk t).view.emb y) = _
  rw [V_v0]
  have e : ((cfg0.win 0).blk t).view.emb y = ix2 k n := funext fun a => Fin.ext (by
    match a with
    | ⟨0, _⟩ => show win0_0.index t (0 : Fin 2) * 32 + 1 * (y 0).val = k.val; omega
    | ⟨1, _⟩ => show win0_0.index t (1 : Fin 2) * 65536 + 1 * (y 1).val = n.val; omega)
  rw [e]
  exact transpose_ix2_apply _ _ k n

theorem xfull_apply (c : Dev nD) (t : Fin cfg0.N) (k : Fin 32) (q : Fin 65536)
    (hm : win0_0.moved (grid0.coords t) (ix2 k q) = true) (n : Fin 1000000) (hn : n.val = t.val * 65536 + q.val) :
    xfull m c t (ix2 k q) = m ((c : Thread nD τ).loc main_arg0) (ix2 n k) := by
  unfold xfull Window.fill
  rw [dif_pos hm]
  exact xblk_apply m c t _ k n rfl hn

/-! ## What a point writes back -/

/-- The recorded payload of point `t`, at row `p` and a column `q` that exists, is channel `p` at point `65536·t + q`. -/
theorem entry_eq (c : Dev nD) (t : Fin cfg0.N) (p : Fin 32) (q : Fin 65536) (n : Fin 1000000)
    (hm : ∀ k : Fin 32, win0_0.moved (grid0.coords t) (ix2 k q) = true) (hn : n.val = t.val * 65536 + q.val) :
    oblk m c t (ix2 p q)
      = gt (m ((c : Thread nD τ).loc main_arg0)) (m ((c : Thread nD τ).loc main_arg1)) (m ((c : Thread nD τ).loc main_arg2)) p n := by
  unfold oblk gt
  rw [Pay.pay_apply, bblk_apply]
  refine congrArg (· + _) (Finset.sum_congr rfl fun k _ => ?_)
  rw [wblk_apply, xfull_apply m c t k q (hm k) n hn]

/-- What point `t` writes back is block `t` of the transposed result. -/
theorem flushed_eq (c : Dev nD) (t : Fin cfg0.N) :
    (dats m 0 c).flushed 3 t = ((cfg0.win 3).blk t).view.read (Elt Ideal)
      (Gt (m ((c : Thread nD τ).loc main_arg0)) (m ((c : Thread nD τ).loc main_arg1)) (m ((c : Thread nD τ).loc main_arg2))) := by
  obtain ⟨-, -, -, -, -, -, e0, e1, -⟩ := idx_facts t
  show (cfg0.win 3).cut (grid0.coords t) ((dats m 0 c).after 3 t) = _
  rw [after0_3]
  funext j
  show oblk m c t (win0_3.xinj (grid0.coords t) j) = Gt _ _ _ (((cfg0.win 3).blk t).view.emb j)
  have h0 : ((((cfg0.win 3).blk t).view.emb j) 0).val = (j 0).val := by
    show win0_3.index t (0 : Fin 2) * 32 + 1 * (j 0).val = (j 0).val; omega
  have h1 : ((((cfg0.win 3).blk t).view.emb j) 1).val = t.val * 65536 + (j 1).val := by
    show win0_3.index t (1 : Fin 2) * 65536 + 1 * (j 1).val = _; omega
  have hp : ((((cfg0.win 3).blk t).view.emb j) 0 : Fin 32) = win0_3.xinj (grid0.coords t) j 0 := Fin.ext h0
  rw [eq_ix2 (win0_3.xinj (grid0.coords t) j)]
  exact (entry_eq m c t _ _ ((((cfg0.win 3).blk t).view.emb j) 1) (fun k => moved_col (grid0.coords t) j k) h1).trans
    (congrArg (fun p => gt _ _ _ p ((((cfg0.win 3).blk t).view.emb j) 1)) hp.symm)

/-! ## The blocks cover the array -/

theorem mem_blk (t : Fin cfg0.N) (i : S32x1000000.Idx) :
    i ∈ ((cfg0.win 3).blk t).view.set ↔ ∀ a : Fin 2, win0_3.index t a * S32x65536.size a ≤ (i a).val
      ∧ (i a).val < win0_3.index t a * S32x65536.size a + win0_3.xsize (grid0.coords t) a := by
  show i ∈ ((View.whole main_v2).slice (win0_3.rect t)).set ↔ _
  rw [View.set_slice_whole, Rect.mem_set_unit]
  exact Iff.rfl

/-- Column `n` lies in block `n / 65536`: fifteen full blocks, then the 16960 columns of the last. -/
theorem cover (i : S32x1000000.Idx) : ∃ t : Fin cfg0.N, (cfg0.win 3).flush t = true ∧ i ∈ ((cfg0.win 3).blk t).view.set := by
  have hi0 : (i 0).val < 32 := (i 0).isLt
  have hi1 : (i 1).val < 1000000 := (i 1).isLt
  obtain ⟨t, ht⟩ : ∃ t : Fin cfg0.N, t.val = (i 1).val / 65536 :=
    ⟨⟨(i 1).val / 65536, by have := N_0; show _ < grid0.N; omega⟩, rfl⟩
  obtain ⟨-, -, -, -, -, -, e0, e1, x0, x1⟩ := idx_facts t
  refine ⟨t, flush0_3 t, (mem_blk t i).mpr fun a => ?_⟩
  match a with
  | ⟨0, _⟩ =>
    show win0_3.index t (0 : Fin 2) * 32 ≤ (i 0).val ∧ (i 0).val < win0_3.index t (0 : Fin 2) * 32 + win0_3.xsize (grid0.coords t) (0 : Fin 2)
    rw [e0, x0]; omega
  | ⟨1, _⟩ =>
    show win0_3.index t (1 : Fin 2) * 65536 ≤ (i 1).val ∧ (i 1).val < win0_3.index t (1 : Fin 2) * 65536 + win0_3.xsize (grid0.coords t) (1 : Fin 2)
    rw [e1, x1]
    split <;> omega

/-- The transposed result after the run. -/
theorem final (c : Dev nD) : (dats m 0 c).arrAt 3 cfg0.N
    = Gt (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host's final transpose, and the run -/

/-- Transposing the channel-by-point layout gives the point-by-channel one. -/
theorem transpose_Gt (X : S1000000x32.Idx → EReal) (W : S32x32.Idx → EReal) (B : S1x32.Idx → EReal) :
    transpose S1000000x32 [1, 0] (Gt X W B) transposes_S32x1000000_S1000000x32_1_0 = G X W B := by
  funext i
  obtain ⟨n, p, rfl⟩ : ∃ (n : Fin 1000000) (p : Fin 32), i = ix2 n p := ⟨i 0, i 1, eq_ix2 i⟩
  exact transpose_ix2_apply (Gt X W B) _ n p

/-- The buffer the program returns, after the host operation that follows the region: the transpose of the region's result. -/
theorem tail_v3 (c : Dev nD) : Pipeline.afterTail₀ cfgs (dats m) 0 (V0 m) [hostOps1] c main_v3
    = transpose S1000000x32 [1, 0] ((dats m 0 c).arrAt 3 cfg0.N) transposes_S32x1000000_S1000000x32_1_0 := by
  unfold Pipeline.afterTail₀
  show StableHlo.after hostOps1 _ (Proc.devRef .tc main_v3) = _
  after_results
  exact congrArg (fun z => transpose S1000000x32 [1, 0] z transposes_S32x1000000_S1000000x32_1_0)
    (Pipeline.withArrays_arr spec0 launch0.win.arr_inj c _ _ 3)

/-- THE RUN, READ: every weakly fair execution of the kernel's program terminates with the returned buffer at the
    common function of the arguments and the arguments unchanged. -/
theorem run : θ_run defs (onTc (τ := τ) (main (F := Ideal))) ⟨m, fun _ => 0, ρ⟩ fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans
        ((tail_v3 m c).trans (by rw [final]; exact transpose_Gt _ _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Val

end
-- ==== Proof.RefSide.lean ====
import proofs.«113221_g37271726195534_cont_8to1_b_778_5_alg».proof.Proof.Gen.ReferenceIdeal.Read
import proofs.«113221_g37271726195534_cont_8to1_b_778_5_alg».proof.Proof.Spec
import Idealize.ShloMosaic.Lib.ValueIdx
import Idealize.ShloMosaic.PureOps.Ideal.Laws

/-!
# The reference computes the same function

The reference multiplies the activations by the weights (contracting the activations' channel axis with the weights'
row axis), spreads the bias row over the points, and adds: at point `n` and output channel `p` it is
`∑ₖ X[n, k] · W[k, p] + B[0, p]`. Each product is the kernel's `W[k, p] · X[n, k]` with the factors exchanged;
multiplication of extended reals commutes, so the two sums are equal term by term.
-/

noncomputable section

namespace Cert.ReferenceIdeal.RefValue

open Cert.ReferenceIdeal Cert.ReferenceIdeal.Gen Cert.ReferenceIdeal.Read
open Idealize.ShloMosaic Idealize.ShloMosaic.ValueIdx

/-- The reference's result, entry by entry, is the common function. -/
theorem ref_eq (X : (⟨S1000000x32, .f32⟩ : BufTy).Contents (Elt Ideal)) (W : (⟨S32x32, .f32⟩ : BufTy).Contents (Elt Ideal))
    (B : (⟨S1x32, .f32⟩ : BufTy).Contents (Elt Ideal)) :
    val_main_v2 (F := Ideal) X W B = Cert.Spec.G X W B := by
  funext i
  have el : ∀ k : Fin 32, lidx_main_v0 i k = ix2 (i 0) k := fun k => funext fun a => Fin.ext (by
    match a with | ⟨0, _⟩ => rfl | ⟨1, _⟩ => rfl)
  have er : ∀ k : Fin 32, ridx_main_v0 i k = ix2 k (i 1) := fun k => funext fun a => Fin.ext (by
    match a with | ⟨0, _⟩ => rfl | ⟨1, _⟩ => rfl)
  have eb : idx_main_v1 i = ix2 0 (i 1) := funext fun a => Fin.ext (by
    match a with | ⟨0, _⟩ => rfl | ⟨1, _⟩ => rfl)
  rw [val_main_v2_apply, val_main_v0_apply, val_main_v1_apply, eb]
  unfold Cert.Spec.G Cert.Spec.gt
  refine congrArg (· + B (ix2 0 (i 1))) (Finset.sum_congr rfl fun k _ => ?_)
  rw [el, er]
  exact mul_comm _ _

end Cert.ReferenceIdeal.RefValue

end
-- ==== Proof.lean ====
/-
  The kernel is a pointwise linear layer over 1000000 points with 32 input and 32 output channels, computed on the
  TRANSPOSED activations: the host transposes the activations `X` (to 32 × 1000000) and the bias row `B` (to a
  column), a pipelined region forms `Wᵀ·Xᵀ + Bᵀ` in sixteen blocks of 65536 columns, and the host transposes the
  result back. The reference computes `X·W + B` directly.

  * Value: entry `(n, p)` of the kernel's result is `∑ₖ W[k, p] · X[n, k] + B[0, p]`, of the reference's
    `∑ₖ X[n, k] · W[k, p] + B[0, p]`: equal term by term because multiplication of extended reals commutes. No
    finiteness of the inputs is used.
  * The last block overhangs the arrays (16 · 65536 > 1000000): only its first 16960 columns exist, and the staging
    buffer's remaining columns hold unspecified values after the fetch. The product contracts the channel axis only, so
    a result column depends on the same activation column alone; the unspecified columns reach only result columns
    that the write-back drops.
  * Frames: over the extended reals the run is followed exactly (which also gives the value). At the word level the
    matrix unit's product is a function of its whole operands, so the last block's result is not named; the frame
    does not need it, and the result's window is left undescribed there.
  * `preserves`: the idealization rewrote nothing, so there is nothing to state.
-/
import proofs.«113221_g37271726195534_cont_8to1_b_778_5_alg».proof.Defs
import proofs.«113221_g37271726195534_cont_8to1_b_778_5_alg».proof.Proof.Gen.Kernel
import proofs.«113221_g37271726195534_cont_8to1_b_778_5_alg».proof.Proof.Gen.KernelIdeal
import proofs.«113221_g37271726195534_cont_8to1_b_778_5_alg».proof.Proof.Gen.ReferenceIdeal
import proofs.«113221_g37271726195534_cont_8to1_b_778_5_alg».proof.Proof.Gen.Pre_finite_inputs
import proofs.«113221_g37271726195534_cont_8to1_b_778_5_alg».proof.Proof.Gen.ReferenceIdeal.Run
import proofs.«113221_g37271726195534_cont_8to1_b_778_5_alg».proof.Proof.Gen.ReferenceIdeal.Read
import proofs.«113221_g37271726195534_cont_8to1_b_778_5_alg».proof.Proof.BitsFrame
import proofs.«113221_g37271726195534_cont_8to1_b_778_5_alg».proof.Proof.IdealValue
import proofs.«113221_g37271726195534_cont_8to1_b_778_5_alg».proof.Proof.RefSide
import Idealize.ShloMosaic.Adequacy
import Idealize.ShloMosaic.Init

noncomputable section

namespace Cert.Proof

open Idealize.ShloMosaic Idealize.SL.Sem

/-- The program as printed runs to the end, faults nowhere and leaves its arguments unchanged. -/
theorem frame_k : Cert.frame_Kernel := fun m ρ _ => Cert.Kernel.Frame.frame (F := Bits) m ρ

/-- So does its idealization. -/
theorem frame_ki : Cert.frame_KernelIdeal := fun m ρ _ => Cert.KernelIdeal.Data.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the returned buffer at the common function of the arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
